-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x2048 : Shape := ⟨4, ![4, 16, 64, 2048]⟩
abbrev S_ : Shape := ⟨0, ![]⟩

class Facts : Prop where
  bcast_S_S4x16x64x2048 : S_.BroadcastsInDim S4x16x64x2048 (![] : Fin 0 → Fin S4x16x64x2048.rank)
  reducesTo_S4x16x64x2048_S_d0_1_2_3 : S4x16x64x2048.ReducesTo [0, 1, 2, 3] S_
  h_S_ : 0 < S_.numel

variable [Facts]

def fn {F : FTy → Type} [FloatOps F] (main_arg0 : FVec F S4x16x64x2048 .f32) (main_arg1 : FVec F S4x16x64x2048 .f32) (main_arg2 : FVec F S4x16x64x2048 .f32) : IVec S_ 1 :=
  let main_v0 : FVec F S4x16x64x2048 .f32 := Host.absf main_arg0
  let main_cst : FVec F S_ .f32 := constant S_ .f32 0x7F800000#32
  let main_v1 : FVec F S4x16x64x2048 .f32 := broadcastInDim S4x16x64x2048 ![] bcast_S_S4x16x64x2048 main_cst
  let main_v2 : IVec S4x16x64x2048 1 := cmpf .olt main_v0 main_v1
  let main_c : IVec S_ 1 := constantI S_ 1 1#1
  let main_v3 : IVec S_ 1 := (fun x v => Host.reduce IntOp.andi x v reducesTo_S4x16x64x2048_S_d0_1_2_3 h_S_) main_v2 main_c
  let main_v4 : FVec F S4x16x64x2048 .f32 := Host.absf main_arg1
  let main_cst_0 : FVec F S_ .f32 := constant S_ .f32 0x7F800000#32
  let main_v5 : FVec F S4x16x64x2048 .f32 := broadcastInDim S4x16x64x2048 ![] bcast_S_S4x16x64x2048 main_cst_0
  let main_v6 : IVec S4x16x64x2048 1 := cmpf .olt main_v4 main_v5
  let main_c_1 : IVec S_ 1 := constantI S_ 1 1#1
  let main_v7 : IVec S_ 1 := (fun x v => Host.reduce IntOp.andi x v reducesTo_S4x16x64x2048_S_d0_1_2_3 h_S_) main_v6 main_c_1
  let main_v8 : IVec S_ 1 := andi main_v3 main_v7
  let main_v9 : FVec F S4x16x64x2048 .f32 := Host.absf main_arg2
  let main_cst_2 : FVec F S_ .f32 := constant S_ .f32 0x7F800000#32
  let main_v10 : FVec F S4x16x64x2048 .f32 := broadcastInDim S4x16x64x2048 ![] bcast_S_S4x16x64x2048 main_cst_2
  let main_v11 : IVec S4x16x64x2048 1 := cmpf .olt main_v9 main_v10
  let main_c_3 : IVec S_ 1 := constantI S_ 1 1#1
  let main_v12 : IVec S_ 1 := (fun x v => Host.reduce IntOp.andi x v reducesTo_S4x16x64x2048_S_d0_1_2_3 h_S_) main_v11 main_c_3
  let main_v13 : IVec S_ 1 := andi main_v8 main_v12
  main_v13
-- ==== Kernel.lean ====
abbrev S4x16x64x2048 : Shape := ⟨4, ![4, 16, 64, 2048]⟩
abbrev S1x1x64x1024 : Shape := ⟨4, ![1, 1, 64, 1024]⟩
abbrev S1x1x64x2048 : Shape := ⟨4, ![1, 1, 64, 2048]⟩
abbrev S64x2048 : Shape := ⟨2, ![64, 2048]⟩
abbrev S64x1024 : Shape := ⟨2, ![64, 1024]⟩
abbrev S2048x1024 : Shape := ⟨2, ![2048, 1024]⟩
abbrev S1x2048 : Shape := ⟨2, ![1, 2048]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x16x64x2048, .f32⟩
  | .hbm, ⟨1, _⟩ => ⟨S4x16x64x2048, .f32⟩
  | .hbm, ⟨2, _⟩ => ⟨S4x16x64x2048, .f32⟩
  | .hbm, ⟨3, _⟩ => ⟨S4x16x64x2048, .f32⟩
  | .local _ .vmem, ⟨0, _⟩ => ⟨S1x1x64x1024, .f32⟩
  | .local _ .vmem, ⟨1, _⟩ => ⟨S1x1x64x1024, .f32⟩
  | .local _ .vmem, ⟨2, _⟩ => ⟨S1x1x64x2048, .f32⟩
  | .local _ .vmem, ⟨3, _⟩ => ⟨S1x1x64x2048, .f32⟩
  | .local _ .vmem, ⟨4, _⟩ => ⟨S1x1x64x2048, .f32⟩
  | .local _ .vmem, ⟨5, _⟩ => ⟨S1x1x64x2048, .f32⟩
  | .local _ .vmem, ⟨6, _⟩ => ⟨S1x1x64x1024, .f32⟩
  | .local _ .vmem, ⟨7, _⟩ => ⟨S1x1x64x1024, .f32⟩
  | _, _ => ⟨S4x16x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage0_0 : Fin 2 → Memref sig .tc .vmem S1x1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  inb_S1x1x64x2048_S1x1x64x2048_0_0_0_0 : ∀ a, (![0, 0, 0, 0] : Fin 4 → Nat) a + S1x1x64x2048.size a ≤ S1x1x64x2048.size a
  h_S1x1x64x2048 : 0 < S1x1x64x2048.numel
  shapeCasts_S1x1x64x2048_S64x2048 : S1x1x64x2048.ShapeCasts S64x2048
  bitsLt_bf16_f32 : FTy.bits .bf16 < FTy.bits .f32
  inb_S1x1x64x1024_S1x1x64x1024_0_0_0_0 : ∀ a, (![0, 0, 0, 0] : Fin 4 → Nat) a + S1x1x64x1024.size a ≤ S1x1x64x1024.size a
  h_S1x1x64x1024 : 0 < S1x1x64x1024.numel
  shapeCasts_S1x1x64x1024_S64x1024 : S1x1x64x1024.ShapeCasts S64x1024
  broadcasts_S1x1024_S64x1024 : S1x1024.Broadcasts S64x1024
  shapeCasts_S64x1024_S1x1x64x1024 : S64x1024.ShapeCasts S1x1x64x1024
  dot_S64x2048_S64x1024_S2048x1024_0_0_1_1_n_n_wf : DotDims.WF S64x2048 S64x1024 S2048x1024 [0] [0] [1] [1] [] []
  dot_S1x2048_S2048x1024_S1x1024_1_0_0_1_n_n_wf : DotDims.WF S1x2048 S2048x1024 S1x1024 [1] [0] [0] [1] [] []
  dot_S64x2048_S2048x1024_S64x1024_1_0_0_1_n_n_wf : DotDims.WF S64x2048 S2048x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x64x1024.size a ≤ S4x16x64x2048.size a
  hwx0_0 : ∀ i : grid0.Coords, EltTy.bits .f32 = 32 ∨ (Rect.block (s := S4x16x64x2048) S1x1x64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2048.size a ≤ S4x16x64x2048.size a
  hwx0_1 : ∀ i : grid0.Coords, EltTy.bits .f32 = 32 ∨ (Rect.block (s := S4x16x64x2048) S1x1x64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64x2048.size a ≤ S4x16x64x2048.size a
  hwx0_2 : ∀ i : grid0.Coords, EltTy.bits .f32 = 32 ∨ (Rect.block (s := S4x16x64x2048) S1x1x64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64x1024.size a ≤ S4x16x64x2048.size a
  hwx0_3 : ∀ i : grid0.Coords, EltTy.bits .f32 = 32 ∨ (Rect.block (s := S4x16x64x2048) S1x1x64x1024.size (cc0_transform_3 i) (hinb0_3 i)).WholeWords (EltTy.packing .f32)

variable [Facts₀]

def dot_S64x2048_S64x1024_S2048x1024_0_0_1_1_n_n : DotDims S64x2048 S64x1024 S2048x1024 where
  lhsContracting := [0]
  rhsContracting := [0]
  lhsNonContracting := [1]
  rhsNonContracting := [1]
  lhsBatch := []
  rhsBatch := []
  wf := dot_S64x2048_S64x1024_S2048x1024_0_0_1_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S64x2048_S2048x1024_S64x1024_1_0_0_1_n_n : DotDims S64x2048 S2048x1024 S64x1024 where
  lhsContracting := [1]
  rhsContracting := [0]
  lhsNonContracting := [0]
  rhsNonContracting := [1]
  lhsBatch := []
  rhsBatch := []
  wf := dot_S64x2048_S2048x1024_S64x1024_1_0_0_1_n_n_wf

abbrev win0_0 : Pipeline.Window sig grid0 :=
  Pipeline.Window.ofSpec (Memref.whole main_arg0) S1x1x64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x64x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x64x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x64x2048 : Shape := ⟨4, ![4, 16, 64, 2048]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x64x2048, .f32⟩
  | .hbm, ⟨1, _⟩ => ⟨S4x16x64x2048, .f32⟩
  | .hbm, ⟨2, _⟩ => ⟨S4x16x64x2048, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x64x2048, .f32⟩
  | _, _ => ⟨S4x16x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x64x2048_S4x16x64x2048_S4x16x2048x2048_2_2_3_3_01_01_wf : DotDims.WF S4x16x64x2048 S4x16x64x2048 S4x16x2048x2048 [2] [2] [3] [3] [0, 1] [0, 1]
  dot_S4x16x64x2048_S4x16x2048x2048_S4x16x64x2048_3_3_2_2_01_01_wf : DotDims.WF S4x16x64x2048 S4x16x2048x2048 S4x16x64x2048 [3] [3] [2] [2] [0, 1] [0, 1]

variable [Facts₀]

def dot_S4x16x64x2048_S4x16x64x2048_S4x16x2048x2048_2_2_3_3_01_01 : DotDims S4x16x64x2048 S4x16x64x2048 S4x16x2048x2048 where
  lhsContracting := [2]
  rhsContracting := [2]
  lhsNonContracting := [3]
  rhsNonContracting := [3]
  lhsBatch := [0, 1]
  rhsBatch := [0, 1]
  wf := dot_S4x16x64x2048_S4x16x64x2048_S4x16x2048x2048_2_2_3_3_01_01_wf
def dot_S4x16x64x2048_S4x16x2048x2048_S4x16x64x2048_3_3_2_2_01_01 : DotDims S4x16x64x2048 S4x16x2048x2048 S4x16x64x2048 where
  lhsContracting := [3]
  rhsContracting := [3]
  lhsNonContracting := [2]
  rhsNonContracting := [2]
  lhsBatch := [0, 1]
  rhsBatch := [0, 1]
  wf := dot_S4x16x64x2048_S4x16x2048x2048_S4x16x64x2048_3_3_2_2_01_01_wf

class Facts : Prop extends Facts₀ where

variable [Facts]
-- ==== Proof.LibPlainDot.lean ====
/-
  A plain matrix product read at an index.

  For the dimension numbers of an M × K by K × N product (contract the left operand's columns with the right
  operand's rows, no batch axis), the sum over the contraction index that a matmul or a dot_general denotes at the
  ideal values is the familiar one: at row p and column q, the sum over k of l (p, k) · r (k, q). General in M, K, N;
  a program's own record of these dimension numbers is this one up to its proof field.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

theorem contr_rank : (DotDims.plain M K N).contr.rank = 1 := rfl
theorem contr_size : (DotDims.plain M K N).contr.size ⟨0, by rw [contr_rank]; exact Nat.one_pos⟩ = K := rfl

/-- The contraction index of a plain product is its one coordinate, a column of the left operand. -/
abbrev kEquiv : (DotDims.plain M K N).contr.Idx ≃ Fin K := contrEquiv1 (DotDims.plain M K N) K (contr_rank M K N) (contr_size M K N)

/-- The left operand is read at (row of the result, k). -/
theorem lhsIdx_eq (j : (⟨2, ![M, N]⟩ : Shape).Idx) (k : Fin K) :
    (DotDims.plain M K N).lhsIdx j ((kEquiv M K N).symm k) = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand is read at (k, column of the result). -/
theorem rhsIdx_eq (j : (⟨2, ![M, N]⟩ : Shape).Idx) (k : Fin K) :
    (DotDims.plain M K N).rhsIdx j ((kEquiv M K N).symm k) = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The contraction sum of a plain product, over the column index. -/
theorem sum_eq (l : (⟨2, ![M, K]⟩ : Shape).Idx → EReal) (r : (⟨2, ![K, N]⟩ : Shape).Idx → EReal) (j : (⟨2, ![M, N]⟩ : Shape).Idx) :
    (∑ kk : (DotDims.plain M K N).contr.Idx, l ((DotDims.plain M K N).lhsIdx j kk) * r ((DotDims.plain M K N).rhsIdx j kk))
      = ∑ k : Fin K, l (ix2 (j 0) k) * r (ix2 k (j 1)) := by
  rw [← Equiv.sum_comp (kEquiv M K N).symm]
  exact Finset.sum_congr rfl fun k _ =>
    congrArg₂ (· * ·) (congrArg l (lhsIdx_eq M K N j k)) (congrArg r (rhsIdx_eq M K N j k))

variable {φ₁ φ₂ : FTy}

/-- A kernel's matmul into the zero accumulator, at (p, q). -/
theorem matmul_zero_apply (prec : Option ContractPrecision) (l : FVec Ideal ⟨2, ![M, K]⟩ φ₁) (r : FVec Ideal ⟨2, ![K, N]⟩ φ₂)
    (p : Fin M) (q : Fin N) :
    matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (sum_eq M K N l r (ix2 p q))

/-- The host's dot_general, at (p, q). -/
theorem dotGeneral_apply (prec : Option ContractPrecision) (l : FVec Ideal ⟨2, ![M, K]⟩ φ₁) (r : FVec Ideal ⟨2, ![K, N]⟩ φ₂)
    (p : Fin M) (q : Fin N) :
    Host.dotGeneral (DotDims.plain M K N) prec l r (ix2 p q) = ∑ k : Fin K, l (ix2 p k) * r (ix2 k q) :=
  (Ideal.dotGeneral_apply (DotDims.plain M K N) prec _ l r (ix2 p q)).trans (sum_eq M K N l r (ix2 p q))

end Idealize.ShloMosaic.PlainDot

end
-- ==== Proof.Spec.lean ====
/-
  Attention over one (batch, head) slab, as ONE function of the three argument arrays.

  The arrays are [4, 16, 64, 2048]: batch, head, feature, position. For batch b, head h and a query position I the score
  against key position j is  s(j, I) = Σ_d K(b, h, d, j) · (Q(b, h, d, I) · c),  and the result at feature d is

      (Σ_j V(b, h, d, j) · e^{s(j, I)}) · (1 / Σ_j 1 · e^{s(j, I)}):

  the values' average over the key positions, weighted by the exponentials of the scores. It is written with the three
  float words the kernel spells (the scale c, the bf16 one of the row of ones, the f32 one that is divided by the total),
  kept as words: both programs are compared against this one term, and the words are only evaluated where the algebra
  needs their values.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The shape of q, k, v and of the result. -/
abbrev QKV : Shape := ⟨4, ![4, 16, 64, 2048]⟩

/-- The scale 1/8 as the f32 word both programs spell, the bf16 word of the row of ones, and the f32 word of the one
    that is divided by the total. -/
abbrev scaleW : EReal := Ideal.ofBits .f32 0x3E000000#32
abbrev oneRowW : EReal := Ideal.ofBits .bf16 0x3F80#16
abbrev oneW : EReal := Ideal.ofBits .f32 0x3F800000#32

/-- The score of key position j against query position I in slab (b, h), the scale folded into the query. -/
def scoreAt (Q K : QKV.Idx → EReal) (b : Fin 4) (h : Fin 16) (j I : Fin 2048) : EReal :=
  ∑ d : Fin 64, K (ix4 b h d j) * (Q (ix4 b h d I) * scaleW)

/-- The attention output at (b, h, d, I). -/
def attnAt (Q K V : QKV.Idx → EReal) (b : Fin 4) (h : Fin 16) (d : Fin 64) (I : Fin 2048) : EReal :=
  (∑ j : Fin 2048, V (ix4 b h d j) * Ideal.exp (scoreAt Q K b h j I))
    * Ideal.div oneW (∑ j : Fin 2048, oneRowW * Ideal.exp (scoreAt Q K b h j I))

/-- The attention output as a whole array. -/
def attn (Q K V : QKV.Idx → EReal) : QKV.Idx → EReal := fun i => attnAt Q K V (i 0) (i 1) (i 2) (i 3)

theorem attn_ix4 (Q K V : QKV.Idx → EReal) (b : Fin 4) (h : Fin 16) (d : Fin 64) (I : Fin 2048) :
    attn Q K V (ix4 b h d I) = attnAt Q K V b h d I := rfl

/-! ## The words' values -/

/-- 0x3E000000 has exponent field 124 and an empty fraction: 2^(124 - 127) = 1/8. -/
theorem scaleW_val : scaleW = (((1 : ℝ) / 8 : ℝ) : EReal) := by
  simp [Ideal.ofBits, Ideal.ieee, -EReal.coe_mul]; norm_num
/-- 0x3F800000 has exponent field 127 and an empty fraction: one. -/
theorem oneW_val : oneW = ((1 : ℝ) : EReal) := by
  simp [Ideal.ofBits, Ideal.ieee, -EReal.coe_mul]; norm_num
/-- The bf16 word 0x3F80 has exponent field 127 and an empty fraction: one. -/
theorem oneRowW_val : oneRowW = ((1 : ℝ) : EReal) := by
  simp [Ideal.ofBits, Ideal.ieee, -EReal.coe_mul]; norm_num
/-- 0xFF800000 is the negative infinity. -/
theorem negInf_val : Ideal.ofBits .f32 0xFF800000#32 = (⊥ : EReal) := by
  simp [Ideal.ofBits, Ideal.ieee]
/-- 0x7F800000 is the positive infinity. -/
theorem posInf_val : Ideal.ofBits .f32 0x7F800000#32 = (⊤ : EReal) := by
  simp [Ideal.ofBits, Ideal.ieee]

end Cert.Attn

end
-- ==== Proof.KernelPayload.lean ====
/-
  The body's stored block, entry by entry.

  At a grid point the body holds a block Q of the queries (64 features by 1024 positions) and the full K and V of one
  head (64 features by 2048 positions). It forms the transposed scores  s(j, i) = Σ_d K(d, j) · (Q(d, i) · c)  by a
  product that contracts the FIRST axis of both operands, exponentiates them, takes the column totals of the
  exponentials as the product of a row of ones with them, takes the values' weighted sums  Σ_j V(d, j) · e^{s(j, i)},
  and multiplies these by the reciprocal of the totals, one row broadcast down the 64 features. The changes of float
  format in between are the identity on exact values. Read at feature d and position i this is

      (Σ_j V(d, j) · exp (Σ_d' K(d', j) · (Q(d', i) · c))) · (1 / Σ_j 1 · exp (Σ_d' K(d', j) · (Q(d', i) · c))).
-/
import proofs.«409490_j60112362275431_3_alg».proof.Proof.Gen.KernelIdeal.Skeleton
import proofs.«409490_j60112362275431_3_alg».proof.Proof.LibPlainDot
import proofs.«409490_j60112362275431_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.Attn (scaleW oneRowW oneW)

/-! ## A block with two leading unit axes seen as a matrix, and back -/

/-- A [1, 1, 64, n] block viewed as a [64, n] matrix: entry (d, j) is the block's entry (0, 0, d, j). -/
theorem block_as_matrix {α : Type} {n : ℕ} (x : (⟨4, ![1, 1, 64, n]⟩ : Shape).Idx → α)
    (h : (⟨4, ![1, 1, 64, n]⟩ : Shape).ShapeCasts ⟨2, ![64, n]⟩) (d : Fin 64) (j : Fin n) :
    shapeCast ⟨2, ![64, n]⟩ x h (ix2 d j) = x (ix4 (0 : Fin 1) (0 : Fin 1) d j) :=
  shapeCast_apply x h _ _ (by
    rw [Shape.rowMajor_val_four, Shape.rowMajor_val_two]
    show (((0 * 1 + 0) * 64 + d.val) * n + j.val) = d.val * n + j.val
    simp only [Nat.zero_mul, Nat.zero_add])

/-- A [64, n] matrix stored as a [1, 1, 64, n] block: the block's entry (0, 0, d, i) is the matrix's (d, i). -/
theorem matrix_as_block {α : Type} {n : ℕ} (y : (⟨2, ![64, n]⟩ : Shape).Idx → α)
    (h : (⟨2, ![64, n]⟩ : Shape).ShapeCasts ⟨4, ![1, 1, 64, n]⟩) (d : Fin 64) (i : Fin n) :
    shapeCast ⟨4, ![1, 1, 64, n]⟩ y h (ix4 (0 : Fin 1) (0 : Fin 1) d i) = y (ix2 d i) :=
  shapeCast_apply y h _ _ (by
    rw [Shape.rowMajor_val_four, Shape.rowMajor_val_two]
    show d.val * n + i.val = (((0 * 1 + 0) * 64 + d.val) * n + i.val)
    simp only [Nat.zero_mul, Nat.zero_add])

/-! ## The product that contracts the first axis of both operands -/

theorem gram_lhs_0 (i : S2048x1024.Idx) (q : dot_S64x2048_S64x1024_S2048x1024_0_0_1_1_n_n.contr.Idx) :
    (dot_S64x2048_S64x1024_S2048x1024_0_0_1_1_n_n.lhsIdx i q 0).val = (q ⟨0, by decide⟩).val :=
  dot_S64x2048_S64x1024_S2048x1024_0_0_1_1_n_n.lhsIdx_val_of_single rfl i q
theorem gram_lhs_1 (i : S2048x1024.Idx) (q : dot_S64x2048_S64x1024_S2048x1024_0_0_1_1_n_n.contr.Idx) :
    (dot_S64x2048_S64x1024_S2048x1024_0_0_1_1_n_n.lhsIdx i q 1).val = (i 0).val := by
  unfold DotDims.lhsIdx
  rw [dif_neg (show ¬(1 : Fin S64x2048.rank) ∈ dot_S64x2048_S64x1024_S2048x1024_0_0_1_1_n_n.lhsBatch by decide), dif_pos (show (1 : Fin S64x2048.rank) ∈ dot_S64x2048_S64x1024_S2048x1024_0_0_1_1_n_n.lhsNonContracting by decide)]
  rfl
theorem gram_rhs_0 (i : S2048x1024.Idx) (q : dot_S64x2048_S64x1024_S2048x1024_0_0_1_1_n_n.contr.Idx) :
    (dot_S64x2048_S64x1024_S2048x1024_0_0_1_1_n_n.rhsIdx i q 0).val = (q ⟨0, by decide⟩).val :=
  dot_S64x2048_S64x1024_S2048x1024_0_0_1_1_n_n.rhsIdx_val_of_single rfl i q
theorem gram_rhs_1 (i : S2048x1024.Idx) (q : dot_S64x2048_S64x1024_S2048x1024_0_0_1_1_n_n.contr.Idx) :
    (dot_S64x2048_S64x1024_S2048x1024_0_0_1_1_n_n.rhsIdx i q 1).val = (i 1).val := by
  unfold DotDims.rhsIdx
  rw [dif_neg (show ¬(1 : Fin S64x1024.rank) ∈ dot_S64x2048_S64x1024_S2048x1024_0_0_1_1_n_n.rhsBatch by decide), dif_pos (show (1 : Fin S64x1024.rank) ∈ dot_S64x2048_S64x1024_S2048x1024_0_0_1_1_n_n.rhsNonContracting by decide)]
  rfl

/-- Into a zero accumulator, at (j, i): the sum over the shared first axis of l(d, j) · r(d, i). -/
theorem gram_apply {φ₁ φ₂ : FTy} (l : FVec Ideal S64x2048 φ₁) (r : FVec Ideal S64x1024 φ₂) (j : Fin 2048) (i : Fin 1024) :
    matmul dot_S64x2048_S64x1024_S2048x1024_0_0_1_1_n_n none l r (constant S2048x1024 .f32 0x00000000#32) (ix2 j i)
      = ∑ d : Fin 64, l (ix2 d j) * r (ix2 d i) := by
  simp only [matmul]
  rw [Ideal.matmul_constant_zero_apply, ← Equiv.sum_comp (contrEquiv1 dot_S64x2048_S64x1024_S2048x1024_0_0_1_1_n_n 64 rfl rfl).symm]
  refine Finset.sum_congr rfl fun d _ => ?_
  have hd := contrEquiv1_symm_val dot_S64x2048_S64x1024_S2048x1024_0_0_1_1_n_n 64 rfl rfl d
  have el : dot_S64x2048_S64x1024_S2048x1024_0_0_1_1_n_n.lhsIdx (ix2 j i) ((contrEquiv1 dot_S64x2048_S64x1024_S2048x1024_0_0_1_1_n_n 64 rfl rfl).symm d) = ix2 d j := funext fun a => Fin.ext (by
    match a with
    | ⟨0, _⟩ => exact (gram_lhs_0 _ _).trans hd
    | ⟨1, _⟩ => exact gram_lhs_1 _ _)
  have er : dot_S64x2048_S64x1024_S2048x1024_0_0_1_1_n_n.rhsIdx (ix2 j i) ((contrEquiv1 dot_S64x2048_S64x1024_S2048x1024_0_0_1_1_n_n 64 rfl rfl).symm d) = ix2 d i := funext fun a => Fin.ext (by
    match a with
    | ⟨0, _⟩ => exact (gram_rhs_0 _ _).trans hd
    | ⟨1, _⟩ => exact gram_rhs_1 _ _)
  rw [el, er]

/-! ## The stored block at (0, 0, d, i) -/

/-- The transposed score at key position j and query position i. -/
def score (xq : S1x1x64x1024.Idx → EReal) (xk : S1x1x64x2048.Idx → EReal) (j : Fin 2048) (i : Fin 1024) : EReal :=
  ∑ d : Fin 64, xk (ix4 (0 : Fin 1) (0 : Fin 1) d j) * (xq (ix4 (0 : Fin 1) (0 : Fin 1) d i) * scaleW)

theorem pay_apply (xq : Vec Ideal S1x1x64x1024 .f32) (xk xv : Vec Ideal S1x1x64x2048 .f32) (d : Fin 64) (i : Fin 1024) :
    k0_pay1 (F := Ideal) xk xq xv (ix4 (0 : Fin 1) (0 : Fin 1) d i)
      = (∑ j : Fin 2048, xv (ix4 (0 : Fin 1) (0 : Fin 1) d j) * Ideal.exp (score xq xk j i))
          * Ideal.div oneW (∑ j : Fin 2048, oneRowW * Ideal.exp (score xq xk j i)) := by
  unfold k0_pay1
  -- the stored block is the [64, 1024] result under two unit axes
  refine (matrix_as_block _ _ d i).trans ?_
  -- a product of the weighted sums with the broadcast reciprocal row
  refine (mulf_apply _ _ (ix2 d i)).trans ?_
  refine congrArg₂ (· * ·) ?_ ?_
  · -- the weighted sums: V against the exponentials, a plain product
    refine (PlainDot.matmul_zero_apply 64 2048 1024 none _ _ d i).trans ?_
    refine Finset.sum_congr rfl fun j _ => congrArg₂ (· * ·) ?_ ?_
    · exact block_as_matrix _ _ d j
    · show Ideal.exp _ = _
      refine congrArg Ideal.exp ?_
      refine (gram_apply _ _ j i).trans ?_
      refine Finset.sum_congr rfl fun d' _ => congrArg₂ (· * ·) ?_ ?_
      · exact block_as_matrix _ _ d' j
      · exact congrArg (· * scaleW) (block_as_matrix _ _ d' i)
  · -- the reciprocal row, broadcast down the features
    refine (broadcastTo_1b_ab_apply _ _ d i).trans ?_
    refine (divf_apply _ _ (ix2 (0 : Fin 1) i)).trans ?_
    refine congrArg₂ Ideal.div rfl ?_
    refine (PlainDot.matmul_zero_apply 1 2048 1024 none _ _ (0 : Fin 1) i).trans ?_
    refine Finset.sum_congr rfl fun j _ => congrArg₂ (· * ·) rfl ?_
    show Ideal.exp _ = _
    refine congrArg Ideal.exp ?_
    refine (gram_apply _ _ j i).trans ?_
    refine Finset.sum_congr rfl fun d' _ => congrArg₂ (· * ·) ?_ ?_
    · exact block_as_matrix _ _ d' j
    · exact congrArg (· * scaleW) (block_as_matrix _ _ d' i)

end Cert.KernelIdeal.Payload

end
-- ==== Proof.KernelValue.lean ====
/-
  What the kernel's run leaves in the result array.

  The grid has a point for every batch b, head h and half qi of the query positions. At that point the body is handed
  the block of q at (b, h, all features, the qi-th 1024 positions) and the whole (b, h) slabs of k and v, and the block
  it stores is written back to the result at (b, h, all features, the qi-th 1024 positions). So the entry (0, 0, d, i)
  of the stored block is the attention output at (b, h, d, 1024·qi + i): the body reads exactly the rows of the
  arguments that this output depends on. Every index of the result lies in the block of exactly the point with its b,
  its h and the half its position falls in, so after the run the result array is the attention output everywhere.
-/
import proofs.«409490_j60112362275431_3_alg».proof.Proof.Gen.KernelIdeal.Value
import proofs.«409490_j60112362275431_3_alg».proof.Proof.KernelPayload
import proofs.«409490_j60112362275431_3_alg».proof.Proof.Spec

set_option maxRecDepth 16384

noncomputable section

namespace Cert.KernelIdeal.AttnValue

open Cert.KernelIdeal Cert.KernelIdeal.Gen Idealize.ShloMosaic Idealize.ShloMosaic.TcCoe Idealize.SL.Sem
open Idealize.ShloMosaic.ValueIdx
open Idealize.ShloMosaic.Pipeline (Dat)
open Cert.Attn (attn attnAt scoreAt scaleW oneRowW oneW)

theorem hz : (![0, 0, 0, 0] : Fin 4 → Nat) = fun _ => 0 := funext fun a => by fin_cases a <;> rfl

/-- The stored block against the attention output, for blocks that are the arguments read through index maps `eq`,
    `ek`, `ev` and a result written through `eo`: when the maps place the blocks in slab (B, H), the key and value
    blocks at all positions and the query and result blocks at the positions `pos`, the block's entry at y is the
    attention output at `eo y`. -/
theorem block_eq (Q K V : S4x16x64x2048.Idx → EReal) (xq : Vec Ideal S1x1x64x1024 .f32) (xk xv : Vec Ideal S1x1x64x2048 .f32)
    (eq eo : S1x1x64x1024.Idx → S4x16x64x2048.Idx) (ek ev : S1x1x64x2048.Idx → S4x16x64x2048.Idx)
    (hq : ∀ y, xq y = Q (eq y)) (hk : ∀ y, xk y = K (ek y)) (hv : ∀ y, xv y = V (ev y))
    (B : Fin 4) (H : Fin 16) (pos : Fin 1024 → Fin 2048)
    (heq : ∀ (d : Fin 64) (i : Fin 1024), eq (ix4 (0 : Fin 1) (0 : Fin 1) d i) = ix4 B H d (pos i))
    (hek : ∀ (d : Fin 64) (j : Fin 2048), ek (ix4 (0 : Fin 1) (0 : Fin 1) d j) = ix4 B H d j)
    (hev : ∀ (d : Fin 64) (j : Fin 2048), ev (ix4 (0 : Fin 1) (0 : Fin 1) d j) = ix4 B H d j)
    (heo : ∀ (d : Fin 64) (i : Fin 1024), eo (ix4 (0 : Fin 1) (0 : Fin 1) d i) = ix4 B H d (pos i))
    (y : S1x1x64x1024.Idx) :
    k0_pay1 (F := Ideal) xk xq xv y = attn Q K V (eo y) := by
  obtain ⟨d, i, rfl⟩ : ∃ (d : Fin 64) (i : Fin 1024), y = ix4 (0 : Fin 1) (0 : Fin 1) d i :=
    ⟨y 2, y 3, funext fun a => Fin.ext (by
      match a with
      | ⟨0, _⟩ => show (y 0).val = 0; have : (y 0).val < 1 := (y 0).isLt; omega
      | ⟨1, _⟩ => show (y 1).val = 0; have : (y 1).val < 1 := (y 1).isLt; omega
      | ⟨2, _⟩ => rfl
      | ⟨3, _⟩ => rfl)⟩
  rw [Payload.pay_apply, heo, Cert.Attn.attn_ix4]
  unfold attnAt Payload.score scoreAt
  simp only [hq, hk, hv, heq, hek, hev]

/-- The printed index maps over the grid: the query block moves with the result block; the key and value blocks have
    the result's batch and head and sit at the origin of the other two axes; the result's block index is (b, h, 0, qi). -/
theorem idx_facts : ∀ t : Fin cfg0.N,
    win0_0.index t (0 : Fin 4) = win0_3.index t (0 : Fin 4) ∧ win0_0.index t (1 : Fin 4) = win0_3.index t (1 : Fin 4)
    ∧ win0_0.index t (2 : Fin 4) = 0 ∧ win0_0.index t (3 : Fin 4) = win0_3.index t (3 : Fin 4)
    ∧ win0_1.index t (0 : Fin 4) = win0_3.index t (0 : Fin 4) ∧ win0_1.index t (1 : Fin 4) = win0_3.index t (1 : Fin 4)
    ∧ win0_1.index t (2 : Fin 4) = 0 ∧ win0_1.index t (3 : Fin 4) = 0
    ∧ win0_2.index t (0 : Fin 4) = win0_3.index t (0 : Fin 4) ∧ win0_2.index t (1 : Fin 4) = win0_3.index t (1 : Fin 4)
    ∧ win0_2.index t (2 : Fin 4) = 0 ∧ win0_2.index t (3 : Fin 4) = 0
    ∧ win0_3.index t (0 : Fin 4) < 4 ∧ win0_3.index t (1 : Fin 4) < 16 ∧ win0_3.index t (2 : Fin 4) = 0
    ∧ win0_3.index t (3 : Fin 4) < 2 :=
  (by decide +kernel : ∀ t : Fin grid0.N, _)

/-- Every (batch, head, half) is some point's result block. -/
theorem idx_onto : ∀ (q0 : Fin 4) (q1 : Fin 16) (q3 : Fin 2), ∃ t : Fin cfg0.N, win0_3.index t = ![q0.val, q1.val, 0, q3.val] :=
  (by decide +kernel : ∀ (q0 : Fin 4) (q1 : Fin 16) (q3 : Fin 2), ∃ t : Fin grid0.N, win0_3.index t = ![q0.val, q1.val, 0, q3.val])

variable (m : (ℓ : Loc nD τ sig) → Buf (Elt Ideal) ℓ) (ρ : Dev nD → PrngReg)

/-- What point t writes back is its block of the attention output of the argument arrays. -/
theorem flushed_eq (c : Dev nD) (t : Fin cfg0.N) :
    (dats m 0 c).flushed 3 t
      = ((cfg0.win 3).blk t).view.read (Elt Ideal) (attn (V m c main_arg0) (V m c main_arg1) (V m c main_arg2)) := by
  rw [Value.flushed3]
  unfold out0_3
  rw [View.canon_unit_zero hz]
  simp only [View.ld_unit_zero (S := S1x1x64x2048) hz, View.ld_unit_zero (S := S1x1x64x1024) hz]
  obtain ⟨a0, a1, a2, a3, b0, b1, b2, b3, c0, c1, c2, c3, o0, o1, o2, o3⟩ := idx_facts t
  funext y
  show k0_pay1 (F := Ideal) (iblk m c 1 t) (iblk m c 0 t) (iblk m c 2 t) y
    = attn (V m c main_arg0) (V m c main_arg1) (V m c main_arg2) (((cfg0.win 3).blk t).view.emb y)
  refine block_eq (V m c main_arg0) (V m c main_arg1) (V m c main_arg2) (iblk m c 0 t) (iblk m c 1 t) (iblk m c 2 t)
    ((cfg0.win 0).blk t).view.emb ((cfg0.win 3).blk t).view.emb ((cfg0.win 1).blk t).view.emb ((cfg0.win 2).blk t).view.emb
    (fun _ => rfl) (fun _ => rfl) (fun _ => rfl)
    ⟨win0_3.index t (0 : Fin 4), o0⟩ ⟨win0_3.index t (1 : Fin 4), o1⟩
    (fun i => ⟨win0_3.index t (3 : Fin 4) * 1024 + i.val, by have := i.isLt; omega⟩)
    ?_ ?_ ?_ ?_ y
  · intro d i; funext a; apply Fin.ext
    match a with
    | ⟨0, _⟩ => show win0_0.index t (0 : Fin 4) * 1 + 1 * (0 : ℕ) = win0_3.index t (0 : Fin 4); omega
    | ⟨1, _⟩ => show win0_0.index t (1 : Fin 4) * 1 + 1 * (0 : ℕ) = win0_3.index t (1 : Fin 4); omega
    | ⟨2, _⟩ => show win0_0.index t (2 : Fin 4) * 64 + 1 * d.val = d.val; omega
    | ⟨3, _⟩ => show win0_0.index t (3 : Fin 4) * 1024 + 1 * i.val = win0_3.index t (3 : Fin 4) * 1024 + i.val; omega
  · intro d j; funext a; apply Fin.ext
    match a with
    | ⟨0, _⟩ => show win0_1.index t (0 : Fin 4) * 1 + 1 * (0 : ℕ) = win0_3.index t (0 : Fin 4); omega
    | ⟨1, _⟩ => show win0_1.index t (1 : Fin 4) * 1 + 1 * (0 : ℕ) = win0_3.index t (1 : Fin 4); omega
    | ⟨2, _⟩ => show win0_1.index t (2 : Fin 4) * 64 + 1 * d.val = d.val; omega
    | ⟨3, _⟩ => show win0_1.index t (3 : Fin 4) * 2048 + 1 * j.val = j.val; omega
  · intro d j; funext a; apply Fin.ext
    match a with
    | ⟨0, _⟩ => show win0_2.index t (0 : Fin 4) * 1 + 1 * (0 : ℕ) = win0_3.index t (0 : Fin 4); omega
    | ⟨1, _⟩ => show win0_2.index t (1 : Fin 4) * 1 + 1 * (0 : ℕ) = win0_3.index t (1 : Fin 4); omega
    | ⟨2, _⟩ => show win0_2.index t (2 : Fin 4) * 64 + 1 * d.val = d.val; omega
    | ⟨3, _⟩ => show win0_2.index t (3 : Fin 4) * 2048 + 1 * j.val = j.val; omega
  · intro d i; funext a; apply Fin.ext
    match a with
    | ⟨0, _⟩ => show win0_3.index t (0 : Fin 4) * 1 + 1 * (0 : ℕ) = win0_3.index t (0 : Fin 4); omega
    | ⟨1, _⟩ => show win0_3.index t (1 : Fin 4) * 1 + 1 * (0 : ℕ) = win0_3.index t (1 : Fin 4); omega
    | ⟨2, _⟩ => show win0_3.index t (2 : Fin 4) * 64 + 1 * d.val = d.val; omega
    | ⟨3, _⟩ => show win0_3.index t (3 : Fin 4) * 1024 + 1 * i.val = win0_3.index t (3 : Fin 4) * 1024 + i.val; omega

/-- An index of the result is in point t's block iff each coordinate is in the block's range on its axis. -/
theorem mem_blk (t : Fin cfg0.N) (i : S4x16x64x2048.Idx) :
    i ∈ ((cfg0.win 3).blk t).view.set ↔ ∀ a : Fin 4, win0_3.index t a * S1x1x64x1024.size a ≤ (i a).val
      ∧ (i a).val < win0_3.index t a * S1x1x64x1024.size a + S1x1x64x1024.size a := by
  show i ∈ ((View.whole main_v0).slice (win0_3.rect t)).set ↔ _
  rw [View.set_slice_whole, Rect.mem_set_unit]
  exact Iff.rfl

/-- Every index of the result is in the block of the point with its batch, its head and its half of the positions. -/
theorem cover (i : S4x16x64x2048.Idx) :
    ∃ t : Fin cfg0.N, (cfg0.win 3).flush t = true ∧ i ∈ ((cfg0.win 3).blk t).view.set := by
  have hi0 : (i 0).val < 4 := (i 0).isLt
  have hi1 : (i 1).val < 16 := (i 1).isLt
  have hi2 : (i 2).val < 64 := (i 2).isLt
  have hi3 : (i 3).val < 2048 := (i 3).isLt
  obtain ⟨t, ht⟩ := idx_onto ⟨(i 0).val, hi0⟩ ⟨(i 1).val, hi1⟩ ⟨(i 3).val / 1024, by omega⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = (i 3).val / 1024 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 64 ≤ (i 2).val ∧ (i 2).val < win0_3.index t (2 : Fin 4) * 64 + 64; omega
  | ⟨3, _⟩ => show win0_3.index t (3 : Fin 4) * 1024 ≤ (i 3).val ∧ (i 3).val < win0_3.index t (3 : Fin 4) * 1024 + 1024; omega

/-- The result array after the run is the attention output of the arguments. -/
theorem final (c : Dev nD) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 (attn (V m c main_arg0) (V m c main_arg1) (V m c main_arg2))
    (fun t _ => flushed_eq m c t) cover

/-- The kernel's run: it terminates with the result array at the attention output and the arguments unchanged. -/
theorem run : θ_run defs (onTc (τ := τ) (main (F := Ideal))) ⟨m, fun _ => 0, ρ⟩ fun r => ∀ c : Dev nD,
      r.2.mem ((c : Thread nD τ).loc main_v0)
        = attn (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.AttnValue

end
-- ==== Proof.Softmax.lean ====
/-
  Attention with and without the row shift, on real numbers read as extended reals.

  For one query position the two programs compute, from a row of scores s_j = (Σ_d q_d k_dj) / 8 and a row of values
  v_j, the weighted mean  Σ_j v_j e^{s_j} / Σ_j e^{s_j}.  One of them first subtracts a number M from every score of the
  row and divides each weight by the row's total; the other multiplies the unnormalised total by one reciprocal.  Since
  e^{s - M} = e^s e^{-M} and e^{-M} is not zero, M cancels, whatever real number it is.  Everything stays inside the reals:
  a finite sum of reals, a product, an exponential, and a quotient by a positive real are reals again, so the equation is
  proved there and carried to the extended reals by the coercion.
-/
import Idealize.ShloMosaic.PureOps.Ideal
import Idealize.ShloMosaic.PureOps.Ideal.Laws

noncomputable section

namespace Cert.Attn

open Idealize.ShloMosaic

/-- A finite sum of reals read as extended reals is the real sum read as an extended real. -/
theorem coe_sum {ι : Type*} (s : Finset ι) (g : ι → ℝ) : (∑ i ∈ s, ((g i : ℝ) : EReal)) = ((∑ i ∈ s, g i : ℝ) : EReal) := by
  classical
  refine Finset.induction_on s (by simp) fun a s ha ih => ?_
  rw [Finset.sum_insert ha, Finset.sum_insert ha, ih, EReal.coe_add]

/-- The shift cancels, over the reals: the unnormalised weighted sum times one reciprocal of the unnormalised total is the
    sum of the values weighted by the shifted, normalised exponentials. -/
theorem shift_cancels {J : Type*} [Fintype J] [Nonempty J] (v s : J → ℝ) (M : ℝ) :
    (∑ j, v j * Real.exp (s j)) * (1 * (1 / ∑ j, 1 * Real.exp (s j)))
      = ∑ j, v j * (Real.exp (s j - M) * (1 / ∑ j', Real.exp (s j' - M))) := by
  have hpos : 0 < ∑ j, Real.exp (s j) := Finset.sum_pos (fun j _ => Real.exp_pos _) Finset.univ_nonempty
  have hM : ∀ j, Real.exp (s j - M) = Real.exp (s j) * Real.exp (-M) := fun j => by
    rw [sub_eq_add_neg, Real.exp_add]
  have hE : Real.exp (-M) ≠ 0 := (Real.exp_pos _).ne'
  simp only [hM, one_mul]
  rw [← Finset.sum_mul, Finset.sum_mul]
  refine Finset.sum_congr rfl fun j _ => ?_
  field_simp

/-- The total of the exponentials of a nonempty row is not zero. -/
theorem total_ne_zero {J : Type*} [Fintype J] [Nonempty J] (s : J → ℝ) : (∑ j, Real.exp (s j)) ≠ 0 :=
  (Finset.sum_pos (fun j _ => Real.exp_pos _) Finset.univ_nonempty).ne'

/-- One query position's result, in the two forms, over real inputs read as extended reals: on the left the scale is
    folded into the query before the contraction, the row is not shifted, and the total is inverted once; on the right
    the contraction is scaled, every score is shifted by `M`, and every weight is divided by the shifted total. -/
theorem row_eq {D J : Type*} [Fintype D] [Fintype J] [Nonempty J] (q : D → ℝ) (k : D → J → ℝ) (v : J → ℝ) (c M : ℝ) :
    (∑ j, (v j : EReal) * Ideal.exp (∑ d, (k d j : EReal) * ((q d : EReal) * (c : EReal))))
        * Ideal.div ((1 : ℝ) : EReal) (∑ j, ((1 : ℝ) : EReal) * Ideal.exp (∑ d, (k d j : EReal) * ((q d : EReal) * (c : EReal))))
      = ∑ j, (v j : EReal) * Ideal.div (Ideal.exp ((∑ d, (q d : EReal) * (k d j : EReal)) * (c : EReal) - (M : EReal)))
          ((0 : EReal) + ∑ j', Ideal.exp ((∑ d, (q d : EReal) * (k d j' : EReal)) * (c : EReal) - (M : EReal))) := by
  -- the scores, as reals, in the two groupings
  have hl : ∀ j, (∑ d, (k d j : EReal) * ((q d : EReal) * (c : EReal))) = ((∑ d, k d j * (q d * c) : ℝ) : EReal) := fun j => by
    simp only [← EReal.coe_mul]; exact coe_sum _ _
  have hs : ∀ j, (∑ d, k d j * (q d * c)) = (∑ d, q d * k d j) * c := fun j => by
    rw [Finset.sum_mul]; exact Finset.sum_congr rfl fun d _ => by ring
  -- every sum, product, difference and exponential of reals is a real
  simp only [hl, Ideal.exp_coe, ← EReal.coe_mul, ← EReal.coe_sub, coe_sum, zero_add]
  -- and so is each quotient, the totals being positive
  rw [Ideal.div_coe (by simpa using total_ne_zero fun j => ∑ d, k d j * (q d * c))]
  simp only [Ideal.div_coe (total_ne_zero fun j => (∑ d, q d * k d j) * c - M), ← EReal.coe_mul, coe_sum]
  congr 1
  simp only [hs]
  exact shift_cancels v (fun j => (∑ d, q d * k d j) * c) M

/-- The largest of finitely many reals, taken from minus infinity upwards, is one of them: a real. -/
theorem fold_max_real {J : Type*} [Fintype J] [Nonempty J] (s : J → ℝ) :
    ∃ M : ℝ, max (⊥ : EReal) ((Finset.univ : Finset J).fold max (⊥ : EReal) (fun j => ((s j : ℝ) : EReal))) = (M : EReal) := by
  obtain ⟨j, -, hj⟩ := Finset.exists_mem_eq_sup (Finset.univ : Finset J) Finset.univ_nonempty (fun j => ((s j : ℝ) : EReal))
  refine ⟨s j, ?_⟩
  rw [max_eq_right bot_le]
  exact hj

end Cert.Attn

end
-- ==== Proof.RefValue.lean ====
/-
  What the reference computes, against the attention output.

  The reference forms the scores  (Σ_d q(b, h, d, I) · k(b, h, d, j)) · c  for every pair of positions, takes each row's
  maximum M(b, h, I) over j (from minus infinity upwards), exponentiates the scores less their row's maximum, divides each
  exponential by its row's total, and contracts the weights with v over the key positions. On real inputs every score is
  a real and every row's maximum is one of its scores, a real; so each row is the situation of the row lemma, and the
  result at (b, h, d, I) is the attention output there.
-/
import proofs.«409490_j60112362275431_3_alg».proof.Proof.Gen.ReferenceIdeal.Read
import proofs.«409490_j60112362275431_3_alg».proof.Proof.Softmax
import proofs.«409490_j60112362275431_3_alg».proof.Proof.Spec
import Idealize.ShloMosaic.PureOps.Reduce

noncomputable section

namespace Cert.ReferenceIdeal.AttnRef

open Cert.ReferenceIdeal Cert.ReferenceIdeal.Gen Cert.ReferenceIdeal.Read Idealize.ShloMosaic Idealize.ShloMosaic.ValueIdx
open Cert.Attn

/-- A real array read as an array of extended reals. -/
abbrev asE (q : S4x16x64x2048.Idx → ℝ) : S4x16x64x2048.Idx → EReal := fun i => ((q i : ℝ) : EReal)

/-! ## The stages at an index, for any extended-real inputs -/

/-- The scaled score of query position I against key position j. -/
theorem v2_at (x0 x1 : S4x16x64x2048.Idx → EReal) (b : Fin 4) (h : Fin 16) (I j : Fin 2048) :
    val_main_v2 (F := Ideal) x0 x1 (ix4 b h I j) = (∑ d : Fin 64, x0 (ix4 b h d I) * x1 (ix4 b h d j)) * scaleW := by
  rw [val_main_v2_apply, val_main_v0_apply, val_main_v1_apply, val_main_cst_apply]
  have el : ∀ d : Fin 64, lidx_main_v0 (ix4 b h I j) d = ix4 b h d I := fun d => funext fun a => Fin.ext (by
    match a with | ⟨0, _⟩ => rfl | ⟨1, _⟩ => rfl | ⟨2, _⟩ => rfl | ⟨3, _⟩ => rfl)
  have er : ∀ d : Fin 64, ridx_main_v0 (ix4 b h I j) d = ix4 b h d j := fun d => funext fun a => Fin.ext (by
    match a with | ⟨0, _⟩ => rfl | ⟨1, _⟩ => rfl | ⟨2, _⟩ => rfl | ⟨3, _⟩ => rfl)
  simp only [el, er, Ideal.mulf_def, Ideal.ofBits_def]

/-- The shifted score: the score less its row's maximum. -/
theorem v8_at (x0 x1 : S4x16x64x2048.Idx → EReal) (b : Fin 4) (h : Fin 16) (I j : Fin 2048) :
    val_main_v8 (F := Ideal) x0 x1 (ix4 b h I j)
      = val_main_v2 (F := Ideal) x0 x1 (ix4 b h I j) - val_main_v5 (F := Ideal) x0 x1 (ix3 b h I) := by
  rw [val_main_v8_apply, val_main_v7_apply, val_main_v6_apply]
  have e : idx_main_v6 (idx_main_v7 (ix4 b h I j)) = ix3 b h I := funext fun a => Fin.ext (by
    match a with | ⟨0, _⟩ => rfl | ⟨1, _⟩ => rfl | ⟨2, _⟩ => rfl)
  rw [e]; rfl

/-- The row's total of the exponentials. -/
theorem v10_at (x0 x1 : S4x16x64x2048.Idx → EReal) (b : Fin 4) (h : Fin 16) (I : Fin 2048) :
    val_main_v10 (F := Ideal) x0 x1 (ix3 b h I)
      = (0 : EReal) + ∑ j : Fin 2048, Ideal.exp (val_main_v8 (F := Ideal) x0 x1 (ix4 b h I j)) := by
  rw [val_main_v10_apply, val_main_cst_2_apply]
  have e : ∀ j : Fin 2048, idx_main_v10 (ix3 b h I) j = ix4 b h I j := fun j => funext fun a => Fin.ext (by
    match a with | ⟨0, _⟩ => rfl | ⟨1, _⟩ => rfl | ⟨2, _⟩ => rfl | ⟨3, _⟩ => rfl)
  simp only [e, val_main_v9_apply, Ideal.hostUnary_exp_def, Ideal.ofBits_def, Ideal.ofBits_zero_f32]

/-- The normalised weight of key position j for query position I. -/
theorem v13_at (x0 x1 : S4x16x64x2048.Idx → EReal) (b : Fin 4) (h : Fin 16) (I j : Fin 2048) :
    val_main_v13 (F := Ideal) x0 x1 (ix4 b h I j)
      = Ideal.div (Ideal.exp (val_main_v8 (F := Ideal) x0 x1 (ix4 b h I j))) (val_main_v10 (F := Ideal) x0 x1 (ix3 b h I)) := by
  rw [val_main_v13_apply, val_main_v9_apply, val_main_v12_apply, val_main_v11_apply]
  have e : idx_main_v11 (idx_main_v12 (ix4 b h I j)) = ix3 b h I := funext fun a => Fin.ext (by
    match a with | ⟨0, _⟩ => rfl | ⟨1, _⟩ => rfl | ⟨2, _⟩ => rfl)
  rw [e]; rfl

/-- The result: the weights contracted with v over the key positions. -/
theorem v14_at (x0 x1 x2 : S4x16x64x2048.Idx → EReal) (b : Fin 4) (h : Fin 16) (d : Fin 64) (I : Fin 2048) :
    val_main_v14 (F := Ideal) x0 x1 x2 (ix4 b h d I)
      = ∑ j : Fin 2048, x2 (ix4 b h d j) * val_main_v13 (F := Ideal) x0 x1 (ix4 b h I j) := by
  rw [val_main_v14_apply]
  have el : ∀ j : Fin 2048, lidx_main_v14 (ix4 b h d I) j = ix4 b h d j := fun j => funext fun a => Fin.ext (by
    match a with | ⟨0, _⟩ => rfl | ⟨1, _⟩ => rfl | ⟨2, _⟩ => rfl | ⟨3, _⟩ => rfl)
  have er : ∀ j : Fin 2048, ridx_main_v14 (ix4 b h d I) j = ix4 b h I j := fun j => funext fun a => Fin.ext (by
    match a with | ⟨0, _⟩ => rfl | ⟨1, _⟩ => rfl | ⟨2, _⟩ => rfl | ⟨3, _⟩ => rfl)
  simp only [el, er]

/-! ## On real inputs -/

variable (q k v : S4x16x64x2048.Idx → ℝ)

/-- A real score. -/
theorem v2_real (b : Fin 4) (h : Fin 16) (I j : Fin 2048) :
    val_main_v2 (F := Ideal) (asE q) (asE k) (ix4 b h I j)
      = (((∑ d : Fin 64, q (ix4 b h d I) * k (ix4 b h d j)) * ((1 : ℝ) / 8) : ℝ) : EReal) := by
  rw [v2_at, scaleW_val]
  simp only [← EReal.coe_mul, coe_sum]

/-- The reduced index (b, h, I) with the dropped position j put back is (b, h, I, j). -/
theorem lift_at (hr : S4x16x2048x2048.Reduces [3] S4x16x2048) (b : Fin 4) (h : Fin 16) (I : Fin 2048)
    (j : Fin (S4x16x2048x2048.size 3)) : hr.lift (ix3 b h I) j = ix4 b h I (⟨j.val, j.isLt⟩ : Fin 2048) := by
  funext a; apply Fin.ext
  fin_cases a <;> rfl

/-- Each row's maximum is a real. -/
theorem v5_real (b : Fin 4) (h : Fin 16) (I : Fin 2048) :
    ∃ M : ℝ, val_main_v5 (F := Ideal) (asE q) (asE k) (ix3 b h I) = (M : EReal) := by
  have hr : S4x16x2048x2048.Reduces [3] S4x16x2048 := by decide
  obtain ⟨M, hM⟩ := fold_max_real (fun j : Fin 2048 => (∑ d : Fin 64, q (ix4 b h d I) * k (ix4 b h d j)) * ((1 : ℝ) / 8))
  refine ⟨M, ?_⟩
  rw [val_main_v5_apply, val_main_v4_apply, val_main_cst_1_apply]
  unfold val_main_v3
  rw [Host.reduce_eq_fold_single FloatOps.maximumf _ _ reducesTo_S4x16x2048x2048_S4x16x2048_d3 hr h_S_]
  have hf : (val_main_v2 (F := Ideal) (asE q) (asE k) ∘ hr.lift (ix3 b h I))
      = fun j : Fin 2048 => (((∑ d : Fin 64, q (ix4 b h d I) * k (ix4 b h d j)) * ((1 : ℝ) / 8) : ℝ) : EReal) :=
    funext fun j => by
      show val_main_v2 (F := Ideal) (asE q) (asE k) (hr.lift (ix3 b h I) j) = _
      rw [lift_at hr b h I j]
      exact v2_real q k b h I _
  rw [hf]
  show max (Ideal.ofBits .f32 0xFF800000#32) (Finset.univ.fold max (Ideal.ofBits .f32 0xFF800000#32) _) = _
  rw [negInf_val]
  exact hM

/-- The reference's result at (b, h, d, I) is the attention output there. -/
theorem ref_at (b : Fin 4) (h : Fin 16) (d : Fin 64) (I : Fin 2048) :
    val_main_v14 (F := Ideal) (asE q) (asE k) (asE v) (ix4 b h d I) = attnAt (asE q) (asE k) (asE v) b h d I := by
  obtain ⟨M, hM⟩ := v5_real q k b h I
  rw [v14_at]
  simp only [v13_at, v10_at, v8_at, v2_at, hM]
  unfold attnAt scoreAt
  rw [scaleW_val, oneW_val, oneRowW_val]
  exact (row_eq (fun d' => q (ix4 b h d' I)) (fun d' j => k (ix4 b h d' j)) (fun j => v (ix4 b h d j)) ((1 : ℝ) / 8) M).symm

/-- On real inputs the reference's result array is the attention output. -/
theorem ref_eq : val_main_v14 (F := Ideal) (asE q) (asE k) (asE v) = attn (asE q) (asE k) (asE v) := by
  funext i
  exact (congrArg (val_main_v14 (F := Ideal) (asE q) (asE k) (asE v)) (eq_ix4 i)).trans (ref_at q k v (i 0) (i 1) (i 2) (i 3))

end Cert.ReferenceIdeal.AttnRef

end
-- ==== Proof.Finite.lean ====
/-
  The precondition says that every entry of q, k and v is a real number.

  It is the conjunction of three tests, one per input: that every entry's absolute value is below plus infinity. An
  extended real whose absolute value is below plus infinity is neither infinity, so it is a real.
-/
import proofs.«409490_j60112362275431_3_alg».proof.Pre_finite_inputs
import proofs.«409490_j60112362275431_3_alg».proof.Proof.Gen.Pre_finite_inputs
import proofs.«409490_j60112362275431_3_alg».proof.Proof.Spec
import Idealize.ShloMosaic.Lib.ReduceAll
import Idealize.ShloMosaic.PureOps.Ideal.Laws

noncomputable section

namespace Cert.Pre_finite_inputs.Finite

open Cert.Pre_finite_inputs Idealize.ShloMosaic

instance : Subsingleton S_.Idx := ⟨fun a b => funext fun d => d.elim0⟩

/-- An extended real whose absolute value is below plus infinity is a real. -/
theorem real_of_abs_lt (x : EReal) (h : Ideal.cmp .olt (max x (-x)) (Ideal.ofBits .f32 0x7F800000#32) = 1#1) :
    ∃ r : ℝ, x = (r : EReal) := by
  rw [Cert.Attn.posInf_val] at h
  induction x using EReal.rec with
  | bot => exfalso; revert h; simp [Ideal.cmp]
  | coe r => exact ⟨r, rfl⟩
  | top => exfalso; revert h; simp [Ideal.cmp]

/-- Under the precondition the three inputs are arrays of reals. -/
theorem all_real (x0 x1 x2 : S4x16x64x2048.Idx → EReal) (h : fn (F := Ideal) x0 x1 x2 = fun _ => 1#1) :
    (∃ q : S4x16x64x2048.Idx → ℝ, x0 = fun i => ((q i : ℝ) : EReal))
      ∧ (∃ k : S4x16x64x2048.Idx → ℝ, x1 = fun i => ((k i : ℝ) : EReal))
      ∧ (∃ v : S4x16x64x2048.Idx → ℝ, x2 = fun i => ((v i : ℝ) : EReal)) := by
  have h0 := congrFun h ValueIdx.ix0
  dsimp only [fn] at h0
  obtain ⟨h01, h2⟩ := IntOp.andi_eq_one.1 h0
  obtain ⟨h0', h1⟩ := IntOp.andi_eq_one.1 h01
  have r0 : ∀ i, ∃ r : ℝ, x0 i = (r : EReal) := fun i => real_of_abs_lt _ (Host.reduce_andi_all _ _ _ _ _ h0' i)
  have r1 : ∀ i, ∃ r : ℝ, x1 i = (r : EReal) := fun i => real_of_abs_lt _ (Host.reduce_andi_all _ _ _ _ _ h1 i)
  have r2 : ∀ i, ∃ r : ℝ, x2 i = (r : EReal) := fun i => real_of_abs_lt _ (Host.reduce_andi_all _ _ _ _ _ h2 i)
  choose q hq using r0
  choose k hk using r1
  choose v hv using r2
  exact ⟨⟨q, funext hq⟩, ⟨k, funext hk⟩, ⟨v, funext hv⟩⟩

end Cert.Pre_finite_inputs.Finite

end
-- ==== Proof.lean ====
/-
  Attention without the row shift against attention with it.

  Both programs take q, k, v of shape [4, 16, 64, 2048] (batch, head, feature, position) and return, at (b, h, d, I), the
  average of v(b, h, d, ·) over the key positions j weighted by the exponentials of the scores
  s(I, j) = (Σ_d q(b, h, d, I) · k(b, h, d, j)) / 8.

  The kernel works one (batch, head, half of the query positions) at a time: it scales the query block by 1/8, contracts
  it with k over the features, exponentiates, obtains the totals as a row of ones times the exponentials, contracts v
  with the exponentials, and multiplies by the reciprocal of the totals. The reference subtracts each row's maximum
  before exponentiating and divides every weight by its row's total.

  On real inputs the two agree: e^{s - M} = e^s · e^{-M} with e^{-M} a nonzero real, so the shift cancels between a
  weight and its row's total, and the scale may be applied before or after the contraction. The precondition says that
  the inputs are reals, and it is needed: with an infinite score the shifted and the unshifted forms differ.

  The kernel's result array is read off its generated run block by block (each grid point writes the attention output
  of its own slab and half, and the blocks tile the array); the reference's result is read off its generated run stage
  by stage. Nothing in the kernel's program was rewritten for the exact reading, so that conjunct is trivial; the three
  frames are the generated ones.
-/
import proofs.«409490_j60112362275431_3_alg».proof.Defs
import proofs.«409490_j60112362275431_3_alg».proof.Proof.Gen.Kernel
import proofs.«409490_j60112362275431_3_alg».proof.Proof.Gen.Kernel.Skeleton
import proofs.«409490_j60112362275431_3_alg».proof.Proof.Gen.Kernel.Launch
import proofs.«409490_j60112362275431_3_alg».proof.Proof.Gen.Kernel.Points
import proofs.«409490_j60112362275431_3_alg».proof.Proof.Gen.Kernel.Frame
import proofs.«409490_j60112362275431_3_alg».proof.Proof.Gen.KernelIdeal
import proofs.«409490_j60112362275431_3_alg».proof.Proof.Gen.KernelIdeal.Skeleton
import proofs.«409490_j60112362275431_3_alg».proof.Proof.Gen.KernelIdeal.Launch
import proofs.«409490_j60112362275431_3_alg».proof.Proof.Gen.KernelIdeal.Points
import proofs.«409490_j60112362275431_3_alg».proof.Proof.Gen.KernelIdeal.Frame
import proofs.«409490_j60112362275431_3_alg».proof.Proof.Gen.ReferenceIdeal
import proofs.«409490_j60112362275431_3_alg».proof.Proof.Gen.Pre_finite_inputs
import proofs.«409490_j60112362275431_3_alg».proof.Proof.Gen.KernelIdeal.Value
import proofs.«409490_j60112362275431_3_alg».proof.Proof.Gen.ReferenceIdeal.Run
import proofs.«409490_j60112362275431_3_alg».proof.Proof.Gen.ReferenceIdeal.Read
import proofs.«409490_j60112362275431_3_alg».proof.Proof.KernelValue
import proofs.«409490_j60112362275431_3_alg».proof.Proof.RefValue
import proofs.«409490_j60112362275431_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on q, k and v, all real by the precondition, both programs end with the attention output
    in their result arrays. -/
theorem algebraic : Cert.algebraic_KernelIdeal_ReferenceIdeal := by
  intro m ρ m' ρ' hpre hagree
  refine ⟨_, Cert.KernelIdeal.AttnValue.run m ρ, ?_⟩
  refine (θ_run Cert.ReferenceIdeal.defs _ _).mono (fun _ h c => ⟨(h c).1.trans ?_, (h c).2⟩)
    (Cert.ReferenceIdeal.Value.run (F := Ideal) m' ρ')
  obtain ⟨⟨q, hq⟩, ⟨k, hk⟩, ⟨v, hv⟩⟩ := Cert.Pre_finite_inputs.Finite.all_real _ _ _ (hpre c)
  rw [(hagree c).1, (hagree c).2.1, (hagree c).2.2, hq, hk, hv]
  exact (Cert.ReferenceIdeal.Read.val_main_v14_eq _ _ _).trans (Cert.ReferenceIdeal.AttnRef.ref_eq q k v)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
